-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1 .f32 .bf16
  ∧ IdealRules.truncf_extf.Statement Cert.KernelIdeal.S2304x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x256 : Shape := ⟨3, ![16, 576, 256]⟩
abbrev S1x1024x256 : Shape := ⟨3, ![1, 1024, 256]⟩
abbrev S_ : Shape := ⟨0, ![]⟩

class Facts : Prop where
  bcast_S_S16x576x256 : S_.BroadcastsInDim S16x576x256 (![] : Fin 0 → Fin S16x576x256.rank)
  reducesTo_S16x576x256_S_d0_1_2 : S16x576x256.ReducesTo [0, 1, 2] S_
  h_S_ : 0 < S_.numel
  bcast_S_S1x1024x256 : S_.BroadcastsInDim S1x1024x256 (![] : Fin 0 → Fin S1x1024x256.rank)
  reducesTo_S1x1024x256_S_d0_1_2 : S1x1024x256.ReducesTo [0, 1, 2] S_

variable [Facts]

def fn {F : FTy → Type} [FloatOps F] (main_arg0 : FVec F S16x576x256 .f32) (main_arg1 : FVec F S1x1024x256 .f32) : IVec S_ 1 :=
  let main_v0 : FVec F S16x576x256 .f32 := Host.absf main_arg0
  let main_cst : FVec F S_ .f32 := constant S_ .f32 0x7F800000#32
  let main_v1 : FVec F S16x576x256 .f32 := broadcastInDim S16x576x256 ![] bcast_S_S16x576x256 main_cst
  let main_v2 : IVec S16x576x256 1 := cmpf .olt main_v0 main_v1
  let main_c : IVec S_ 1 := constantI S_ 1 1#1
  let main_v3 : IVec S_ 1 := (fun x v => Host.reduce IntOp.andi x v reducesTo_S16x576x256_S_d0_1_2 h_S_) main_v2 main_c
  let main_v4 : FVec F S1x1024x256 .f32 := Host.absf main_arg1
  let main_cst_0 : FVec F S_ .f32 := constant S_ .f32 0x7F800000#32
  let main_v5 : FVec F S1x1024x256 .f32 := broadcastInDim S1x1024x256 ![] bcast_S_S1x1024x256 main_cst_0
  let main_v6 : IVec S1x1024x256 1 := cmpf .olt main_v4 main_v5
  let main_c_1 : IVec S_ 1 := constantI S_ 1 1#1
  let main_v7 : IVec S_ 1 := (fun x v => Host.reduce IntOp.andi x v reducesTo_S1x1024x256_S_d0_1_2 h_S_) main_v6 main_c_1
  let main_v8 : IVec S_ 1 := andi main_v3 main_v7
  main_v8
-- ==== Kernel.lean ====
abbrev S16x576x256 : Shape := ⟨3, ![16, 576, 256]⟩
abbrev S1x1024x256 : Shape := ⟨3, ![1, 1024, 256]⟩
abbrev S9216x256 : Shape := ⟨2, ![9216, 256]⟩
abbrev S1024x256 : Shape := ⟨2, ![1024, 256]⟩
abbrev S9216x1024 : Shape := ⟨2, ![9216, 1024]⟩
abbrev S2304x256 : Shape := ⟨2, ![2304, 256]⟩
abbrev S2304x1024 : Shape := ⟨2, ![2304, 1024]⟩
abbrev S1024x260 : Shape := ⟨2, ![1024, 260]⟩
abbrev S1024 : Shape := ⟨1, ![1024]⟩
abbrev S1024x1 : Shape := ⟨2, ![1024, 1]⟩
abbrev S2304 : Shape := ⟨1, ![2304]⟩
abbrev S2304x1 : Shape := ⟨2, ![2304, 1]⟩
abbrev S2304x260 : Shape := ⟨2, ![2304, 260]⟩
abbrev S16x576x1024 : Shape := ⟨3, ![16, 576, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x576x256, .f32⟩
  | .hbm, ⟨1, _⟩ => ⟨S1x1024x256, .f32⟩
  | .hbm, ⟨2, _⟩ => ⟨S9216x256, .f32⟩
  | .hbm, ⟨3, _⟩ => ⟨S1024x256, .f32⟩
  | .hbm, ⟨4, _⟩ => ⟨S9216x1024, .f32⟩
  | .hbm, ⟨5, _⟩ => ⟨S16x576x1024, .f32⟩
  | .local _ .vmem, ⟨0, _⟩ => ⟨S2304x256, .f32⟩
  | .local _ .vmem, ⟨1, _⟩ => ⟨S2304x256, .f32⟩
  | .local _ .vmem, ⟨2, _⟩ => ⟨S1024x256, .f32⟩
  | .local _ .vmem, ⟨3, _⟩ => ⟨S2304x1024, .f32⟩
  | .local _ .vmem, ⟨4, _⟩ => ⟨S2304x1024, .f32⟩
  | .local _ .vmem, ⟨5, _⟩ => ⟨S1024x260, .bf16⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x576x256_S9216x256 : S16x576x256.ShapeCasts S9216x256
  shapeCasts_S1x1024x256_S1024x256 : S1x1024x256.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  concatenates_S1024x256_S1024x1_S1024x1_S1024x1_S1024x1_S1024x260_d1 : Shape.Concatenates [S1024x256, S1024x1, S1024x1, S1024x1, S1024x1] S1024x260 1
  inb_S1024x260_S1024x260_0_0 : ∀ a, (![0, 0] : Fin 2 → Nat) a + S1024x260.size a ≤ S1024x260.size a
  h_S1024x260 : 0 < S1024x260.numel
  shapeCasts_S1024x260_S1024x260 : S1024x260.ShapeCasts S1024x260
  packedbf16_S1024x260_S1024x260_0_0 : (Rect.unit (s := S1024x260) ![0, 0] S1024x260.size inb_S1024x260_S1024x260_0_0).PackedRows (EltTy.packing .bf16)
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  reduces_S2304x256_S2304 : S2304x256.Reduces [1] S2304
  shapeCasts_S2304_S2304x1 : S2304.ShapeCasts S2304x1
  concatenates_S2304x256_S2304x1_S2304x1_S2304x1_S2304x1_S2304x260_d1 : Shape.Concatenates [S2304x256, S2304x1, S2304x1, S2304x1, S2304x1] S2304x260 1
  inb_S2304x1024_S2304x1024_0_0 : ∀ a, (![0, 0] : Fin 2 → Nat) a + S2304x1024.size a ≤ S2304x1024.size a
  h_S2304x1024 : 0 < S2304x1024.numel
  shapeCasts_S9216x1024_S16x576x1024 : S9216x1024.ShapeCasts S16x576x1024
  dot_S2304x260_S1024x260_S2304x1024_1_1_0_0_n_n_wf : DotDims.WF S2304x260 S1024x260 S2304x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2304x256.size a ≤ S9216x256.size a
  hwx0_0 : ∀ i : grid0.Coords, EltTy.bits .f32 = 32 ∨ (Rect.block (s := S9216x256) S2304x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2304x1024.size a ≤ S9216x1024.size a
  hwx0_2 : ∀ i : grid0.Coords, EltTy.bits .f32 = 32 ∨ (Rect.block (s := S9216x1024) S2304x1024.size (cc0_transform_2 i) (hinb0_2 i)).WholeWords (EltTy.packing .f32)

variable [Facts₀]

def dot_S2304x260_S1024x260_S2304x1024_1_1_0_0_n_n : DotDims S2304x260 S1024x260 S2304x1024 where
  lhsContracting := [1]
  rhsContracting := [1]
  lhsNonContracting := [0]
  rhsNonContracting := [0]
  lhsBatch := []
  rhsBatch := []
  wf := dot_S2304x260_S1024x260_S2304x1024_1_1_0_0_n_n_wf

abbrev win0_0 : Pipeline.Window sig grid0 :=
  Pipeline.Window.ofSpec (Memref.whole main_v0) S2304x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2304x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x576x256 : Shape := ⟨3, ![16, 576, 256]⟩
abbrev S1x1024x256 : Shape := ⟨3, ![1, 1024, 256]⟩
abbrev S9216x256 : Shape := ⟨2, ![9216, 256]⟩
abbrev S1024x256 : Shape := ⟨2, ![1024, 256]⟩
abbrev S_ : Shape := ⟨0, ![]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S256x1024 : Shape := ⟨2, ![256, 1024]⟩
abbrev S9216x1024 : Shape := ⟨2, ![9216, 1024]⟩
abbrev S16x576x1024 : Shape := ⟨3, ![16, 576, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x576x256, .f32⟩
  | .hbm, ⟨1, _⟩ => ⟨S1x1024x256, .f32⟩
  | .hbm, ⟨2, _⟩ => ⟨S9216x256, .f32⟩
  | .hbm, ⟨3, _⟩ => ⟨S1024x256, .f32⟩
  | .hbm, ⟨4, _⟩ => ⟨S9216x256, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S256x1024, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S16x576x1024, .f32⟩
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x576x256_S9216x256 : S16x576x256.ShapeCasts S9216x256
  shapeCasts_S1x1024x256_S1024x256 : S1x1024x256.ShapeCasts S1024x256
  reducesTo_S9216x256_S9216_d1 : S9216x256.ReducesTo [1] S9216
  h_S_ : 0 < S_.numel
  bcast_S9216_S9216x1_0 : S9216.BroadcastsInDim S9216x1 (![0] : Fin 1 → Fin S9216x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S9216x1_S9216x1024_0_1 : S9216x1.BroadcastsInDim S9216x1024 (![0, 1] : Fin 2 → Fin S9216x1024.rank)
  bcast_S1x1024_S9216x1024_0_1 : S1x1024.BroadcastsInDim S9216x1024 (![0, 1] : Fin 2 → Fin S9216x1024.rank)
  bcast_S_S9216x1024 : S_.BroadcastsInDim S9216x1024 (![] : Fin 0 → Fin S9216x1024.rank)
  shapeCasts_S9216x1024_S16x576x1024 : S9216x1024.ShapeCasts S16x576x1024
  dot_S9216x256_S256x1024_S9216x1024_1_0_0_1_n_n_wf : DotDims.WF S9216x256 S256x1024 S9216x1024 [1] [0] [0] [1] [] []

variable [Facts₀]

def dot_S9216x256_S256x1024_S9216x1024_1_0_0_1_n_n : DotDims S9216x256 S256x1024 S9216x1024 where
  lhsContracting := [1]
  rhsContracting := [0]
  lhsNonContracting := [0]
  rhsNonContracting := [1]
  lhsBatch := []
  rhsBatch := []
  wf := dot_S9216x256_S256x1024_S9216x1024_1_0_0_1_n_n_wf

class Facts : Prop extends Facts₀ where

variable [Facts]
-- ==== Proof.Points.lean ====
/-
  What the two control cases of the kernel body leave behind, and what that makes of the grid.

  The body runs in two cases. At the first grid point it stores the augmented codebook into the
  scratch and then multiplies; at every later point it only multiplies, against what the scratch still
  holds. Each case ends with one covering store per buffer, so each buffer's contents are that store's
  payload. By induction over the points the scratch holds the augmented codebook of the block the first
  point found, throughout; hence the output's staging buffer after point t is the matmul of point t's
  feature block with that one augmented codebook.
-/
import proofs.«145358_g44719199486315_cont_8to1c4_369_21_alg».proof.Proof.Gen.KernelIdeal.Frame
import Idealize.ShloMosaic.Lib.Pipeline.Value
import Idealize.ShloMosaic.Lib.Tactic

noncomputable section
namespace Cert.KernelIdeal.Pieces
open Idealize.ShloMosaic Idealize.ShloMosaic.TcCoe Idealize.SL.Sem Cert.KernelIdeal Cert.KernelIdeal.Gen
open Idealize.ShloMosaic.Pipeline (Dat)

variable {F : FTy → Type} [FloatOps F]

/-- A store at offsets (0, 0) is a store at the zero offset on every axis. -/
theorem hz : (![0, 0] : Fin 2 → Nat) = fun _ => 0 := funext fun a => by fin_cases a <;> rfl

/-- At the first point the scratch ends holding the augmented codebook of the codebook block found there:
    the case's one store into it covers it. -/
theorem scratch_A (c : Dev nD) (i : grid0.Coords) (arg1 : Memref sig .tc .vmem S2304x256 .f32) (harg1 : arg1.IsWhole) (arg2 : Memref sig .tc .vmem S1024x256 .f32) (harg2 : arg2.IsWhole) (arg3 : Memref sig .tc .vmem S2304x1024 .f32) (harg3 : arg3.IsWhole) (arg4 : Memref sig .tc .vmem S1024x260 .bf16) (harg4 : arg4.IsWhole) (hc0 : cond0_0 i)
    (x0 : Vec F S2304x256 .f32) (x1 : Vec F S1024x256 .f32) :
    sout0_A_0 c i arg1 harg1 arg2 harg2 arg3 harg3 arg4 harg4 hc0 x0 x1 = k0_pay1 x1 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_unit_zero hz]
  simp only [View.readAt_eq_ld, harg2.read_unread, View.ld_unit_zero (S := S1024x256) hz]

/-- At the first point the output's staging buffer ends holding the matmul of the feature block with the
    augmented codebook just stored: the matmul reads the scratch back after the store. -/
theorem out_A (c : Dev nD) (i : grid0.Coords) (arg1 : Memref sig .tc .vmem S2304x256 .f32) (harg1 : arg1.IsWhole) (arg2 : Memref sig .tc .vmem S1024x256 .f32) (harg2 : arg2.IsWhole) (arg3 : Memref sig .tc .vmem S2304x1024 .f32) (harg3 : arg3.IsWhole) (arg4 : Memref sig .tc .vmem S1024x260 .bf16) (harg4 : arg4.IsWhole) (hc0 : cond0_0 i)
    (x0 : Vec F S2304x256 .f32) (x1 : Vec F S1024x256 .f32) :
    out0_A_2 c i arg1 harg1 arg2 harg2 arg3 harg3 arg4 harg4 hc0 x0 x1 = k0_pay2 x0 (k0_pay1 x1) := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero hz]
  simp only [View.readAt_eq_ld, harg1.read_unread, harg2.read_unread, View.ld_unit_zero (S := S2304x256) hz,
    View.ld_unit_zero (S := S1024x256) hz, View.readCov_unit_zero (S := S1024x260) _ hz]

/-- At a later point it ends holding the matmul of the feature block with whatever the scratch held on entry. -/
theorem out_B (c : Dev nD) (i : grid0.Coords) (arg1 : Memref sig .tc .vmem S2304x256 .f32) (harg1 : arg1.IsWhole) (arg2 : Memref sig .tc .vmem S1024x256 .f32) (harg2 : arg2.IsWhole) (arg3 : Memref sig .tc .vmem S2304x1024 .f32) (harg3 : arg3.IsWhole) (arg4 : Memref sig .tc .vmem S1024x260 .bf16) (harg4 : arg4.IsWhole) (hc0 : ¬cond0_0 i)
    (x0 : Vec F S2304x256 .f32) (x1 : Vec F S1024x256 .f32) (xs0 : Vec F S1024x260 .bf16) :
    out0_B_2 c i arg1 harg1 arg2 harg2 arg3 harg3 arg4 harg4 hc0 x0 x1 xs0 = k0_pay2 x0 xs0 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero hz]
  simp only [View.readAt_eq_ld, harg1.read_unread, harg4.read_unread, View.ld_unit_zero (S := S2304x256) hz,
    View.ld_unit_zero (S := S1024x260) hz]

/-! ## Point by point -/

variable (m : (ℓ : Loc nD τ sig) → Buf (Elt F) ℓ)

/-- The feature block the body finds at point t, and the codebook window's (whole) block. -/
abbrev fblk (c : Dev nD) (t : Fin cfg0.N) : Vec F S2304x256 .f32 := iblk m c 0 t
abbrev cblk (c : Dev nD) (t : Fin cfg0.N) : Vec F S1024x256 .f32 := iblk m c 1 t

/-- The first point of the grid. -/
abbrev tFirst : Fin cfg0.N := ⟨0, by rw [show cfg0.N = 4 from N_0]; decide⟩

/-- What the first point stores in the scratch: the augmented codebook of the block it found. -/
def caug (c : Dev nD) : Vec F S1024x260 .bf16 := k0_pay1 (cblk m c tFirst)

/-- The carried scratch holds the augmented codebook after every point: the first point stores it,
    the later points leave it. -/
theorem scratchAt_eq (c : Dev nD) : ∀ (n : ℕ) (h : n < cfg0.N), (outsAt0 m c n h).2 = caug m c
  | 0, h => by
    rw [outsAt0_A m c ⟨0, h⟩ rfl]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (fblk m c ⟨0, h⟩) (cblk m c ⟨0, h⟩)
  | n + 1, h => by
    have hN : cfg0.N = 4 := N_0
    have hB : ¬(⟨n + 1, h⟩ : Fin cfg0.N).val % 4 = 0 := by dsimp only; omega
    rw [outsAt0_B m c ⟨n + 1, h⟩ hB]
    dsimp only
    unfold sout0_B_0
    exact scratchAt_eq c n (Nat.lt_of_succ_lt h)

/-- The output's staging buffer after point t: the matmul of the point's feature block with the augmented codebook. -/
theorem outAt_eq (c : Dev nD) (t : Fin cfg0.N) : (outsAt0 m c t.val t.isLt).1 = k0_pay2 (fblk m c t) (caug m c) := by
  have hN : cfg0.N = 4 := N_0
  by_cases h0 : t.val % 4 = 0
  · obtain rfl : t = tFirst := Fin.ext (by have := t.isLt; show t.val = 0; omega)
    rw [outsAt0_A m c tFirst h0]
    dsimp only
    exact out_A c (grid0.coords tFirst) (ms0_0 tFirst) (hs0_0 tFirst) (ms0_1 tFirst) (hs0_1 tFirst) (ms0_2 tFirst) (hs0_2 tFirst) scM0_0 (Memref.isWhole_whole _) ((hcond0_0 tFirst).mpr h0) (fblk m c tFirst) (cblk m c tFirst)
  · rw [outsAt0_B m c t h0]
    dsimp only
    refine (out_B c (grid0.coords t) (ms0_0 t) (hs0_0 t) (ms0_1 t) (hs0_1 t) (ms0_2 t) (hs0_2 t) scM0_0 (Memref.isWhole_whole _) (fun h' => h0 ((hcond0_0 t).mp h')) (fblk m c t) (cblk m c t) (outsAt0 m c (t.val - 1) (Nat.lt_of_le_of_lt (Nat.sub_le _ _) t.isLt)).2).trans ?_
    exact congrArg (k0_pay2 (fblk m c t)) (scratchAt_eq m c (t.val - 1) _)

end Cert.KernelIdeal.Pieces
end
-- ==== Proof.SqDist.lean ====
/-
  The mathematics of the squared-distance kernel, with no program in sight.

  For a feature row `a` and a codebook row `b` (each 256 entries) the reference computes
  `(Σ a² + Σ b²) − 2 · Σ a·b`. The kernel instead takes ONE dot product of length 260 between the
  augmented rows  `(−2·a, A, A − A, 1, 1)`  and  `(b, 1, 1, B, B − B)`,  where `A = Σ a²`, `B = Σ b²`:
  `Σ (−2·a)·b + A·1 + (A − A)·1 + 1·B + 1·(B − B)`. Over the reals the two agree (`A − A = 0`,
  and `−2` leaves the sum); over the extended reals they agree once every entry is finite, which is
  where the precondition is used: `⊤ − ⊤` is not `0`, and a factor does not cross a sum at infinities.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-! ## The four float constants the two programs spell -/

/-- The kernel's `-2.0`. -/
theorem ofBits_neg_two : Ideal.ofBits .f32 0xC0000000#32 = ((-2 : ℝ) : EReal) := by
  simp [Ideal.ofBits, Ideal.ieee, -EReal.coe_mul]; norm_num

/-- The reference's `2.0`. -/
theorem ofBits_two : Ideal.ofBits .f32 0x40000000#32 = ((2 : ℝ) : EReal) := by
  simp [Ideal.ofBits, Ideal.ieee, -EReal.coe_mul]; norm_num

/-- The kernel's bf16 `1.0`, the entry of its ones-lanes. -/
theorem ofBits_one_bf16 : Ideal.ofBits .bf16 0x3F80#16 = ((1 : ℝ) : EReal) := by
  simp [Ideal.ofBits, Ideal.ieee, -EReal.coe_mul]; norm_num

/-! ## Sums of reals inside the extended reals -/

/-- The coercion of a finite sum of reals is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-! ## One row against one row -/

/-- The reference's value for a feature row `a` and a codebook row `b`. -/
def rowDist (a b : Fin 256 → EReal) : EReal :=
  ((0 + ∑ d, a d * a d) + (0 + ∑ d, b d * b d)) - ((2 : ℝ) : EReal) * ∑ d, a d * b d

/-- The kernel's value: the length-260 dot product of the augmented rows, its last four products
    written out. -/
def augDot (a b : Fin 256 → EReal) : EReal :=
  (∑ d, (((-2 : ℝ) : EReal) * a d) * b d)
    + ((∑ d, a d * a d) * ((1 : ℝ) : EReal)
      + (((∑ d, a d * a d) - ∑ d, a d * a d) * ((1 : ℝ) : EReal)
        + (((1 : ℝ) : EReal) * (∑ d, b d * b d)
          + ((1 : ℝ) : EReal) * ((∑ d, b d * b d) - ∑ d, b d * b d))))

/-- On finite rows the augmented dot product IS the squared distance's expansion. -/
theorem augDot_eq_rowDist (a b : Fin 256 → ℝ) :
    augDot (fun d => (a d : EReal)) (fun d => (b d : EReal)) = rowDist (fun d => (a d : EReal)) (fun d => (b d : EReal)) := by
  unfold augDot rowDist
  simp only [← EReal.coe_mul, ← coe_sum, ← EReal.coe_sub, ← EReal.coe_add, ← EReal.coe_zero]
  refine congrArg _ ?_
  have h : ∑ d, -2 * a d * b d = -2 * ∑ d, a d * b d := by
    rw [Finset.mul_sum]; exact Finset.sum_congr rfl fun d _ => by ring
  rw [h]; ring

/-! ## The whole arrays -/

/-- Row `r` of a two-axis array. -/
abbrev row {n : Nat} (x : (⟨2, ![n, 256]⟩ : Shape).Idx → EReal) (r : Fin n) : Fin 256 → EReal := fun d => x (ix2 r d)

/-- The squared-distance matrix of the flattened features `f` [9216, 256] and codebook `c` [1024, 256], as the reference spells it. -/
def sqDist (f : (⟨2, ![9216, 256]⟩ : Shape).Idx → EReal) (c : (⟨2, ![1024, 256]⟩ : Shape).Idx → EReal) :
    (⟨2, ![9216, 1024]⟩ : Shape).Idx → EReal :=
  fun j => rowDist (row f (j 0)) (row c (j 1))

/-- The same matrix as the kernel computes it. -/
def augDist (f : (⟨2, ![9216, 256]⟩ : Shape).Idx → EReal) (c : (⟨2, ![1024, 256]⟩ : Shape).Idx → EReal) :
    (⟨2, ![9216, 1024]⟩ : Shape).Idx → EReal :=
  fun j => augDot (row f (j 0)) (row c (j 1))

/-- With every entry of both arrays finite the two matrices are one. -/
theorem augDist_eq_sqDist (f : (⟨2, ![9216, 256]⟩ : Shape).Idx → EReal) (c : (⟨2, ![1024, 256]⟩ : Shape).Idx → EReal)
    (hf : ∀ i, ∃ r : ℝ, f i = (r : EReal)) (hc : ∀ i, ∃ r : ℝ, c i = (r : EReal)) : augDist f c = sqDist f c := by
  choose f' hf' using hf
  choose c' hc' using hc
  funext j
  unfold augDist sqDist
  have ea : row f (j 0) = fun d => ((f' (ix2 (j 0) d) : ℝ) : EReal) := funext fun d => hf' _
  have eb : row c (j 1) = fun d => ((c' (ix2 (j 1) d) : ℝ) : EReal) := funext fun d => hc' _
  rw [ea, eb]
  exact augDot_eq_rowDist _ _

end Cert.SqDist

end
-- ==== Proof.AugLayout.lean ====
/-
  Two layout facts the kernel's augmented operands are built from, over any row count `n`:
  the sum of squares of a row of an [n, 256] array, kept as an [n, 1] column, read at its one lane;
  and the concatenation  [n,256] ++ [n,1] ++ [n,1] ++ [n,1] ++ [n,1]  along the lanes, read at a lane
  below 256 (the first piece) and at lane 256 + e (the e-th unit column).
-/
import Idealize.ShloMosaic.PureOps.Ideal
import Idealize.ShloMosaic.PureOps.Ideal.Laws
import Idealize.ShloMosaic.Lib.ValueIdx
import Idealize.ShloMosaic.Lib.Pipeline.Value

noncomputable section
namespace Cert.AugLayout
open Idealize.ShloMosaic Idealize.ShloMosaic.ValueIdx

/-- The sum of squares of row r, kept as a column. -/
theorem rowsq_col {n : Nat} (x : FVec Ideal ⟨2, ![n, 256]⟩ .f32)
    (hred : Shape.Reduces ⟨2, ![n, 256]⟩ [1] ⟨1, ![n]⟩) (hφ : FKind.Formats .f32)
    (hacc : (0x00000000#32 : BitVec 32) = FKind.add.neutral .f32 hφ)
    (hcast : (⟨1, ![n]⟩ : Shape).ShapeCasts ⟨2, ![n, 1]⟩) (r : Fin n) (u : Fin 1) :
    shapeCast ⟨2, ![n, 1]⟩ (multiReduction .add [1] ⟨1, ![n]⟩ (mulf x x) 0x00000000#32 hred hφ hacc) hcast (ix2 r u)
      = ∑ d : Fin 256, x (ix2 r d) * x (ix2 r d) := by
  rw [shapeCast_apply _ hcast (ix2 r u) (ix1 r) (by
    rw [Shape.rowMajor_val_one, Shape.rowMajor_val_two]
    show r.val = r.val * 1 + u.val
    omega)]
  rw [Ideal.multiReduction_add_single]
  refine Finset.sum_congr rfl fun d _ => ?_
  have e : hred.lift (ix1 r) d = ix2 r d := funext fun a => Fin.ext (by
    match a with
    | ⟨0, _⟩ => rfl
    | ⟨1, _⟩ => rfl)
  rw [e]; rfl

variable {α : Type}

/-- Lanes 0..255 of the five-piece concatenation are the first piece. -/
theorem cat5_body {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) (d : Fin 256) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.castAdd 4 d))
      = p0 (ix2 r d) :=
  concatenate_apply_piece 1 _ h _ 0 (Nat.succ_pos _) ⟨2, ![n, 256]⟩ p0 rfl rfl 0 rfl (ix2 r d)
    (fun b hb => by
      match b with
      | ⟨0, _⟩ => rfl
      | ⟨1, _⟩ => exact absurd rfl hb)
    (by show 0 + d.val = d.val; omega)

/-- Lane 256 + e (e = 0..3) is the e-th unit column. -/
theorem cat5_tail {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) (e : Fin 4) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.natAdd 256 e))
      = (![p1, p2, p3, p4] e) (ix2 r (0 : Fin 1)) := by
  have hi : ∀ b : Fin 2, b.cast rfl ≠ (1 : Fin 2) → ((ix2 r (0 : Fin 1) : (⟨2, ![n, 1]⟩ : Shape).Idx) b).val = ((ix2 r (Fin.natAdd 256 e) : (⟨2, ![n, 260]⟩ : Shape).Idx) (b.cast rfl)).val := fun b hb => by
    match b with
    | ⟨0, _⟩ => rfl
    | ⟨1, _⟩ => exact absurd rfl hb
  match e with
  | ⟨0, _⟩ => exact concatenate_apply_piece 1 _ h _ 1 (by simp) ⟨2, ![n, 1]⟩ p1 rfl rfl 256 rfl (ix2 r 0) hi rfl
  | ⟨1, _⟩ => exact concatenate_apply_piece 1 _ h _ 2 (by simp) ⟨2, ![n, 1]⟩ p2 rfl rfl 257 rfl (ix2 r 0) hi rfl
  | ⟨2, _⟩ => exact concatenate_apply_piece 1 _ h _ 3 (by simp) ⟨2, ![n, 1]⟩ p3 rfl rfl 258 rfl (ix2 r 0) hi rfl
  | ⟨3, _⟩ => exact concatenate_apply_piece 1 _ h _ 4 (by simp) ⟨2, ![n, 1]⟩ p4 rfl rfl 259 rfl (ix2 r 0) hi rfl

/-- Lane 256 is the first unit column. -/
theorem cat5_lane256 {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.natAdd 256 (0 : Fin 4)))
      = p1 (ix2 r (0 : Fin 1)) :=
  cat5_tail p0 p1 p2 p3 p4 h r 0

/-- Lane 257 is the second unit column. -/
theorem cat5_lane257 {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.natAdd 256 (1 : Fin 4)))
      = p2 (ix2 r (0 : Fin 1)) :=
  cat5_tail p0 p1 p2 p3 p4 h r 1

/-- Lane 258 is the third unit column. -/
theorem cat5_lane258 {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.natAdd 256 (2 : Fin 4)))
      = p3 (ix2 r (0 : Fin 1)) :=
  cat5_tail p0 p1 p2 p3 p4 h r 2

/-- Lane 259 is the fourth unit column. -/
theorem cat5_lane259 {n : Nat} (p0 : (⟨2, ![n, 256]⟩ : Shape).Idx → α) (p1 p2 p3 p4 : (⟨2, ![n, 1]⟩ : Shape).Idx → α)
    (h : Shape.Concatenates ([(⟨⟨2, ![n, 256]⟩, p0⟩ : (s : Shape) × (s.Idx → α)), ⟨⟨2, ![n, 1]⟩, p1⟩, ⟨⟨2, ![n, 1]⟩, p2⟩, ⟨⟨2, ![n, 1]⟩, p3⟩, ⟨⟨2, ![n, 1]⟩, p4⟩].map (·.1)) ⟨2, ![n, 260]⟩ 1)
    (r : Fin n) :
    concatenate ⟨2, ![n, 260]⟩ 1 [⟨⟨2, ![n, 256]⟩, p0⟩, ⟨⟨2, ![n, 1]⟩, p1⟩, ⟨⟨2, ![n, 1]⟩, p2⟩, ⟨⟨2, ![n, 1]⟩, p3⟩, ⟨⟨2, ![n, 1]⟩, p4⟩] h (ix2 r (Fin.natAdd 256 (3 : Fin 4)))
      = p4 (ix2 r (0 : Fin 1)) :=
  cat5_tail p0 p1 p2 p3 p4 h r 3

/-- A sum over 260 lanes is the sum over the first 256 plus the last four, one by one. -/
theorem sum_260 {M : Type} [AddCommMonoid M] (g : Fin 260 → M) :
    ∑ q, g q = (∑ d : Fin 256, g (Fin.castAdd 4 d))
      + (g (Fin.natAdd 256 (0 : Fin 4)) + (g (Fin.natAdd 256 (1 : Fin 4)) + (g (Fin.natAdd 256 (2 : Fin 4)) + g (Fin.natAdd 256 (3 : Fin 4))))) := by
  refine (Fin.sum_univ_add (a := 256) (b := 4) g).trans ?_
  rw [Fin.sum_univ_four]
  simp only [add_assoc]

end Cert.AugLayout
end
-- ==== Proof.Payload.lean ====
/-
  What the kernel body computes, read at an index over the extended reals.

  The first payload builds the augmented codebook: row k is  (c_k, 1, 1, C_k, C_k − C_k)  with
  C_k = Σ_d c_k,d² (a change of float format is the identity here). The second payload is ONE matrix
  product of contraction length 260 into a zero accumulator: entry (r, k) is the sum over the 260 lanes of
  the augmented feature row  (−2·f_r, A_r, A_r − A_r, 1, 1)  times lane q of row k of the scratch.
  With the scratch holding the augmented codebook, that is the augmented dot product of the two rows.
-/
import proofs.«145358_g44719199486315_cont_8to1c4_369_21_alg».proof.Proof.Gen.KernelIdeal.Skeleton
import proofs.«145358_g44719199486315_cont_8to1c4_369_21_alg».proof.Proof.SqDist
import proofs.«145358_g44719199486315_cont_8to1c4_369_21_alg».proof.Proof.AugLayout
import Idealize.ShloMosaic.PureOps.Ideal.Laws
import Idealize.ShloMosaic.Lib.ValueIdx
import Idealize.ShloMosaic.Lib.Pipeline.Value

noncomputable section
namespace Cert.KernelIdeal.Payload
open Idealize.ShloMosaic Idealize.ShloMosaic.ValueIdx Cert.KernelIdeal Cert.KernelIdeal.Gen Cert.SqDist

/-- Lanes 0..255 of the augmented codebook: the codebook. -/
theorem caug_body (x1 : Vec Ideal S1024x256 .f32) (k : Fin 1024) (d : Fin 256) :
    k0_pay1 (F := Ideal) x1 (ix2 k (Fin.castAdd 4 d)) = x1 (ix2 k d) := by
  unfold k0_pay1
  simp only [shapeCast_self]
  refine (Cert.AugLayout.cat5_body _ _ _ _ _ _ k d).trans ?_
  rfl

/-- Lanes 256..259 of the augmented codebook: one, one, the row's sum of squares, and that sum less itself. -/
theorem caug_tail (x1 : Vec Ideal S1024x256 .f32) (k : Fin 1024) (e : Fin 4) :
    k0_pay1 (F := Ideal) x1 (ix2 k (Fin.natAdd 256 e))
      = (![((1 : ℝ) : EReal), ((1 : ℝ) : EReal), ∑ d, x1 (ix2 k d) * x1 (ix2 k d),
          (∑ d, x1 (ix2 k d) * x1 (ix2 k d)) - ∑ d, x1 (ix2 k d) * x1 (ix2 k d)] : Fin 4 → EReal) e := by
  unfold k0_pay1
  simp only [shapeCast_self]
  refine (Cert.AugLayout.cat5_tail _ _ _ _ _ _ k e).trans ?_
  match e with
  | ⟨0, _⟩ => exact ofBits_one_bf16
  | ⟨1, _⟩ => exact ofBits_one_bf16
  | ⟨2, _⟩ => exact Cert.AugLayout.rowsq_col x1 reduces_S1024x256_S1024 (.inl rfl) rfl shapeCasts_S1024_S1024x1 k 0
  | ⟨3, _⟩ => exact congrArg₂ (· - ·) (Cert.AugLayout.rowsq_col x1 reduces_S1024x256_S1024 (.inl rfl) rfl shapeCasts_S1024_S1024x1 k 0) (Cert.AugLayout.rowsq_col x1 reduces_S1024x256_S1024 (.inl rfl) rfl shapeCasts_S1024_S1024x1 k 0)

/-! ## The matmul's operand indices -/

/-- Both operands are contracted along their lanes: entry (r, k) of the product, at contraction
    coordinate q, reads the left operand at (r, q) and the right operand at (k, q). The four coordinate facts: -/
theorem lhs_aug_0 (i : S2304x1024.Idx) (q : dot_S2304x260_S1024x260_S2304x1024_1_1_0_0_n_n.contr.Idx) :
    (dot_S2304x260_S1024x260_S2304x1024_1_1_0_0_n_n.lhsIdx i q 0).val = (i 0).val := by
  unfold DotDims.lhsIdx
  rw [dif_neg (show ¬(0 : Fin S2304x260.rank) ∈ dot_S2304x260_S1024x260_S2304x1024_1_1_0_0_n_n.lhsBatch by decide), dif_pos (show (0 : Fin S2304x260.rank) ∈ dot_S2304x260_S1024x260_S2304x1024_1_1_0_0_n_n.lhsNonContracting by decide)]
  rfl
theorem lhs_aug_1 (i : S2304x1024.Idx) (q : dot_S2304x260_S1024x260_S2304x1024_1_1_0_0_n_n.contr.Idx) :
    (dot_S2304x260_S1024x260_S2304x1024_1_1_0_0_n_n.lhsIdx i q 1).val = (q ⟨0, by decide⟩).val :=
  dot_S2304x260_S1024x260_S2304x1024_1_1_0_0_n_n.lhsIdx_val_of_single rfl i q
theorem rhs_aug_0 (i : S2304x1024.Idx) (q : dot_S2304x260_S1024x260_S2304x1024_1_1_0_0_n_n.contr.Idx) :
    (dot_S2304x260_S1024x260_S2304x1024_1_1_0_0_n_n.rhsIdx i q 0).val = (i 1).val := by
  unfold DotDims.rhsIdx
  rw [dif_neg (show ¬(0 : Fin S1024x260.rank) ∈ dot_S2304x260_S1024x260_S2304x1024_1_1_0_0_n_n.rhsBatch by decide), dif_pos (show (0 : Fin S1024x260.rank) ∈ dot_S2304x260_S1024x260_S2304x1024_1_1_0_0_n_n.rhsNonContracting by decide)]
  rfl
theorem rhs_aug_1 (i : S2304x1024.Idx) (q : dot_S2304x260_S1024x260_S2304x1024_1_1_0_0_n_n.contr.Idx) :
    (dot_S2304x260_S1024x260_S2304x1024_1_1_0_0_n_n.rhsIdx i q 1).val = (q ⟨0, by decide⟩).val :=
  dot_S2304x260_S1024x260_S2304x1024_1_1_0_0_n_n.rhsIdx_val_of_single rfl i q

/-- The kernel's matmul at (r, k): the sum over the 260 lanes of the augmented feature row times
    lane q of row k of whatever the scratch holds. -/
theorem dist_apply (x0 : Vec Ideal S2304x256 .f32) (xs : Vec Ideal S1024x260 .bf16) (r : Fin 2304) (k : Fin 1024) :
    k0_pay2 (F := Ideal) x0 xs (ix2 r k)
      = (∑ d : Fin 256, (((-2 : ℝ) : EReal) * x0 (ix2 r d)) * xs (ix2 k (Fin.castAdd 4 d)))
        + ((∑ d, x0 (ix2 r d) * x0 (ix2 r d)) * xs (ix2 k (Fin.natAdd 256 (0 : Fin 4)))
          + (((∑ d, x0 (ix2 r d) * x0 (ix2 r d)) - ∑ d, x0 (ix2 r d) * x0 (ix2 r d)) * xs (ix2 k (Fin.natAdd 256 (1 : Fin 4)))
            + (((1 : ℝ) : EReal) * xs (ix2 k (Fin.natAdd 256 (2 : Fin 4))) + ((1 : ℝ) : EReal) * xs (ix2 k (Fin.natAdd 256 (3 : Fin 4)))))) := by
  unfold k0_pay2
  simp only [shapeCast_self]
  have hy := shapeCast_self x0 shapeCasts_S2304x256_S2304x256
  generalize shapeCast S2304x256 x0 shapeCasts_S2304x256_S2304x256 = y at hy ⊢
  subst hy
  refine (Ideal.matmul_constant_zero_apply (φ₁ := .bf16) (φ₂ := .bf16) dot_S2304x260_S1024x260_S2304x1024_1_1_0_0_n_n none _ xs (ix2 r k)).trans ?_
  rw [← Equiv.sum_comp (ValueIdx.contrEquiv1 dot_S2304x260_S1024x260_S2304x1024_1_1_0_0_n_n 260 rfl rfl).symm]
  have el : ∀ q : Fin 260, dot_S2304x260_S1024x260_S2304x1024_1_1_0_0_n_n.lhsIdx (ix2 r k) ((ValueIdx.contrEquiv1 dot_S2304x260_S1024x260_S2304x1024_1_1_0_0_n_n 260 rfl rfl).symm q) = ix2 r q := fun q => funext fun a => Fin.ext (by
    have hk := ValueIdx.contrEquiv1_symm_val dot_S2304x260_S1024x260_S2304x1024_1_1_0_0_n_n 260 rfl rfl q
    match a with
    | ⟨0, _⟩ => exact lhs_aug_0 _ _
    | ⟨1, _⟩ => exact (lhs_aug_1 _ _).trans hk)
  have er : ∀ q : Fin 260, dot_S2304x260_S1024x260_S2304x1024_1_1_0_0_n_n.rhsIdx (ix2 r k) ((ValueIdx.contrEquiv1 dot_S2304x260_S1024x260_S2304x1024_1_1_0_0_n_n 260 rfl rfl).symm q) = ix2 k q := fun q => funext fun a => Fin.ext (by
    have hk := ValueIdx.contrEquiv1_symm_val dot_S2304x260_S1024x260_S2304x1024_1_1_0_0_n_n 260 rfl rfl q
    match a with
    | ⟨0, _⟩ => exact rhs_aug_0 _ _
    | ⟨1, _⟩ => exact (rhs_aug_1 _ _).trans hk)
  simp only [el, er]
  rw [Cert.AugLayout.sum_260]
  simp only [Cert.AugLayout.cat5_body, Cert.AugLayout.cat5_lane256, Cert.AugLayout.cat5_lane257, Cert.AugLayout.cat5_lane258, Cert.AugLayout.cat5_lane259]
  have hS := Cert.AugLayout.rowsq_col y reduces_S2304x256_S2304 (.inl rfl) rfl shapeCasts_S2304_S2304x1 r 0
  rw [← hS, ← ofBits_neg_two, ← ofBits_one_bf16]
  rfl

/-- The kernel's block value at (r, k), the scratch holding the augmented codebook built from `x1`:
    the augmented dot product of row r of the feature block and row k of the codebook. -/
theorem dist_caug_apply (x0 : Vec Ideal S2304x256 .f32) (x1 : Vec Ideal S1024x256 .f32) (r : Fin 2304) (k : Fin 1024) :
    k0_pay2 (F := Ideal) x0 (k0_pay1 (F := Ideal) x1) (ix2 r k) = augDot (fun d => x0 (ix2 r d)) (fun d => x1 (ix2 k d)) := by
  rw [dist_apply]
  have e0 := caug_tail x1 k 0
  have e1 := caug_tail x1 k 1
  have e2 := caug_tail x1 k 2
  have e3 := caug_tail x1 k 3
  simp only [caug_body]
  rw [e0, e1, e2, e3]
  rfl

end Cert.KernelIdeal.Payload
end
-- ==== Proof.Blocks.lean ====
/-
  From blocks to the array. Grid point t reads feature rows 2304·t … 2304·t + 2303 and the whole
  codebook, and writes back output rows 2304·t … 2304·t + 2303. What it writes back is block t of ONE
  matrix: the augmented dot product of feature row R and codebook row k at entry (R, k). The four row
  blocks tile the output, so that matrix is what the output array holds after the run.
-/
import proofs.«145358_g44719199486315_cont_8to1c4_369_21_alg».proof.Proof.Points
import proofs.«145358_g44719199486315_cont_8to1c4_369_21_alg».proof.Proof.Payload
import Idealize.ShloMosaic.Lib.Pipeline.Value
import Idealize.ShloMosaic.Lib.ValueIdx

noncomputable section
namespace Cert.KernelIdeal.Blocks
open Idealize.ShloMosaic Idealize.ShloMosaic.TcCoe Idealize.ShloMosaic.ValueIdx Idealize.SL.Sem
open Cert.KernelIdeal Cert.KernelIdeal.Gen Cert.KernelIdeal.Pieces Cert.KernelIdeal.Payload Cert.SqDist
open Idealize.ShloMosaic.Pipeline (Dat)

variable (m : (ℓ : Loc nD τ sig) → Buf (Elt Ideal) ℓ) (ρ : Dev nD → PrngReg)

/-- The flattened features and the flattened codebook, as the region finds them. -/
abbrev farr (c : Dev nD) : Vec Ideal S9216x256 .f32 := V m c main_v0
abbrev carr (c : Dev nD) : Vec Ideal S1024x256 .f32 := V m c main_v1

/-- The printed index maps over the grid: point t reads feature rows from 2304·t, the whole codebook,
    and writes output rows from 2304·t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the augmented-dot-product matrix: row r of the block is feature
    row 2304·t + r, and the scratch holds the augmented codebook of the whole codebook array. -/
theorem flushed_eq (c : Dev nD) (t : Fin cfg0.N) :
    (dats m 0 c).flushed 2 t = ((cfg0.win 2).blk t).view.read (Elt Ideal) (augDist (farr m c) (carr m c)) := by
  show (cfg0.win 2).cut (grid0.coords t) ((dats m 0 c).after 2 t) = _
  rw [after0_2, outAt_eq]
  obtain ⟨e0, e1, e2, e3, e4, e5⟩ := idx_facts t
  funext j
  obtain ⟨r, k, rfl⟩ : ∃ (r : Fin 2304) (k : Fin 1024), j = ix2 r k := ⟨j 0, j 1, eq_ix2 j⟩
  show k0_pay2 (fblk m c t) (caug m c) (ix2 r k) = augDist (farr m c) (carr m c) (((cfg0.win 2).blk t).view.emb (ix2 r k))
  unfold caug
  refine (dist_caug_apply (fblk m c t) (cblk m c tFirst) r k).trans ?_
  unfold augDist
  have ha : (fun d => fblk m c t (ix2 r d)) = row (farr m c) (((cfg0.win 2).blk t).view.emb (ix2 r k) 0) := funext fun d => by
    show V m c main_v0 (((cfg0.win 0).blk t).view.emb (ix2 r d)) = V m c main_v0 (ix2 (((cfg0.win 2).blk t).view.emb (ix2 r k) 0) d)
    refine congrArg _ (funext fun a => Fin.ext ?_)
    match a with
    | ⟨0, _⟩ => show win0_0.index t (0 : Fin 2) * 2304 + 1 * r.val = win0_2.index t (0 : Fin 2) * 2304 + 1 * r.val; omega
    | ⟨1, _⟩ => show win0_0.index t (1 : Fin 2) * 256 + 1 * d.val = d.val; omega
  have hb : (fun d => cblk m c tFirst (ix2 k d)) = row (carr m c) (((cfg0.win 2).blk t).view.emb (ix2 r k) 1) := funext fun d => by
    obtain ⟨_, _, f2, f3, _, _⟩ := idx_facts tFirst
    show V m c main_v1 (((cfg0.win 1).blk tFirst).view.emb (ix2 k d)) = V m c main_v1 (ix2 (((cfg0.win 2).blk t).view.emb (ix2 r k) 1) d)
    refine congrArg _ (funext fun a => Fin.ext ?_)
    match a with
    | ⟨0, _⟩ => show win0_1.index tFirst (0 : Fin 2) * 1024 + 1 * k.val = win0_2.index t (1 : Fin 2) * 1024 + 1 * k.val; omega
    | ⟨1, _⟩ => show win0_1.index tFirst (1 : Fin 2) * 256 + 1 * d.val = d.val; omega
  rw [ha, hb]

/-- An index of the output array lies in point t's block iff each coordinate lies in the block's range. -/
theorem mem_blk (t : Fin cfg0.N) (i : S9216x1024.Idx) :
    i ∈ ((cfg0.win 2).blk t).view.set ↔ ∀ a : Fin 2, win0_2.index t a * S2304x1024.size a ≤ (i a).val ∧ (i a).val < win0_2.index t a * S2304x1024.size a + S2304x1024.size a := by
  show i ∈ ((View.whole main_v2).slice (win0_2.rect t)).set ↔ _
  rw [View.set_slice_whole, Rect.mem_set_unit]
  exact Iff.rfl

/-- The four row blocks tile the output, so after the run it holds the augmented-dot-product matrix of
    the flattened features and codebook: row R is covered by point R / 2304. -/
theorem final (c : Dev nD) : (dats m 0 c).arrAt 2 cfg0.N = augDist (farr m c) (carr m c) :=
  (dats m 0 c).arrAt_eq_of_cover 2 (augDist (farr m c) (carr m c)) (fun t _ => flushed_eq m c t) (fun i => by
    have hN : cfg0.N = 4 := N_0
    have hi0 : (i 0).val < 9216 := (i 0).isLt
    have hi1 : (i 1).val < 1024 := (i 1).isLt
    refine ⟨⟨(i 0).val / 2304, by omega⟩, flush0_2 _, ?_⟩
    rw [mem_blk]
    obtain ⟨_, _, _, _, e4, e5⟩ := idx_facts ⟨(i 0).val / 2304, by omega⟩
    intro a
    match a with
    | ⟨0, _⟩ =>
      show win0_2.index _ (0 : Fin 2) * 2304 ≤ (i 0).val ∧ (i 0).val < win0_2.index _ (0 : Fin 2) * 2304 + 2304
      rw [e4]; dsimp only; omega
    | ⟨1, _⟩ =>
      show win0_2.index _ (1 : Fin 2) * 1024 ≤ (i 1).val ∧ (i 1).val < win0_2.index _ (1 : Fin 2) * 1024 + 1024
      rw [e5]; omega)

end Cert.KernelIdeal.Blocks
end
-- ==== Proof.Whole.lean ====
/-
  The host operations around the region, and the kernel's run read whole. Before the region @main
  flattens the features [16, 576, 256] to [9216, 256] and the codebook [1, 1024, 256] to [1024, 256]:
  those are the arrays the region finds. After it @main reshapes the region's [9216, 1024] array to
  [16, 576, 1024]: that is the result. So the result is that reshape of the augmented-dot-product matrix
  of the two flattened arguments.
-/
import proofs.«145358_g44719199486315_cont_8to1c4_369_21_alg».proof.Proof.Blocks
import Idealize.ShloMosaic.Lib.StableHlo.Run
import Idealize.ShloMosaic.Lib.Pipeline.Value

noncomputable section
namespace Cert.KernelIdeal.Whole
open Idealize.ShloMosaic Idealize.ShloMosaic.TcCoe Idealize.ShloMosaic.ValueIdx Idealize.SL.Sem Idealize.ShloMosaic.StableHlo
open Cert.KernelIdeal Cert.KernelIdeal.Gen Cert.KernelIdeal.Blocks Cert.SqDist
open Idealize.ShloMosaic.Pipeline (Dat)

variable (m : (ℓ : Loc nD τ sig) → Buf (Elt Ideal) ℓ) (ρ : Dev nD → PrngReg)

/-- The region finds the features flattened: the first host reshape's result. -/
theorem farr_eq (c : Dev nD) :
    farr m c = shapeCast S9216x256 (m ((c.tc : Thread nD τ).loc main_arg0)) shapeCasts_S16x576x256_S9216x256 := by
  show StableHlo.after hostOps0 (fun b => m (c, b)) (Proc.devRef .tc main_v0) = _
  after_results
  rfl

/-- and the codebook flattened: the second host reshape's result. -/
theorem carr_eq (c : Dev nD) :
    carr m c = shapeCast S1024x256 (m ((c.tc : Thread nD τ).loc main_arg1)) shapeCasts_S1x1024x256_S1024x256 := by
  show StableHlo.after hostOps0 (fun b => m (c, b)) (Proc.devRef .tc main_v1) = _
  after_results
  rfl

/-- The result of @main: the host reshape after the region, of the array the region leaves. -/
theorem tail_eq (c : Dev nD) :
    Pipeline.afterTail₀ cfgs (dats m) 0 (V0 m) [hostOps1] c main_v3
      = shapeCast S16x576x1024 (augDist (farr m c) (carr m c)) shapeCasts_S9216x1024_S16x576x1024 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = augDist (farr m c) (carr m c) :=
    (Pipeline.withArrays_arr spec0 launch0.win.arr_inj c _ _ 2).trans (final m c)
  rw [hw]
  rfl

/-- The kernel's run, read: @main's result is the reshape to [16, 576, 1024] of the augmented-dot-product
    matrix of the flattened arguments; the arguments end as launched. -/
theorem run : θ_run defs (onTc (τ := τ) (main (F := Ideal))) ⟨m, fun _ => 0, ρ⟩ fun r => ∀ c : Dev nD,
      r.2.mem ((c.tc : Thread nD τ).loc main_v3)
        = shapeCast S16x576x1024 (augDist
            (shapeCast S9216x256 (m ((c.tc : Thread nD τ).loc main_arg0)) shapeCasts_S16x576x256_S9216x256)
            (shapeCast S1024x256 (m ((c.tc : Thread nD τ).loc main_arg1)) shapeCasts_S1x1024x256_S1024x256))
            shapeCasts_S9216x1024_S16x576x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans
          ((tail_eq m c).trans (by rw [farr_eq, carr_eq])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole
end
-- ==== Proof.RefValue.lean ====
/-
  The reference, read one operation at a time. Before its last reshape it holds, at (R, k), the sum
  of squares of feature row R plus the sum of squares of codebook row k less twice their dot product:
  the squared-distance matrix of the two flattened arguments, each host sum starting from the zero
  constant. Its result is the reshape of that matrix to [16, 576, 1024].
-/
import proofs.«145358_g44719199486315_cont_8to1c4_369_21_alg».proof.Proof.Gen.ReferenceIdeal.Read
import proofs.«145358_g44719199486315_cont_8to1c4_369_21_alg».proof.Proof.SqDist
import Idealize.ShloMosaic.Lib.ValueIdx
import Idealize.ShloMosaic.PureOps.Ideal.Laws

noncomputable section
namespace Cert.ReferenceIdeal.RefValue
open Idealize.ShloMosaic Idealize.ShloMosaic.ValueIdx Cert.ReferenceIdeal Cert.ReferenceIdeal.Gen Cert.ReferenceIdeal.Read Cert.SqDist

/-- The reference's broadcasts, row sums and transpose, composed: at (R, k) the features' sum of squares
    runs over row R, the codebook's over row k, and the matrix product pairs row R with row k. -/
theorem frow (i : S9216x1024.Idx) (k : Fin 256) : idx_main_v3 (idx_main_v4 (idx_main_v10 i)) k = ix2 (i 0) k :=
  funext fun a => Fin.ext (by match a with | ⟨0, _⟩ => rfl | ⟨1, _⟩ => rfl)
theorem crow (i : S9216x1024.Idx) (k : Fin 256) : idx_main_v6 (idx_main_v7 (idx_main_v11 i)) k = ix2 (i 1) k :=
  funext fun a => Fin.ext (by match a with | ⟨0, _⟩ => rfl | ⟨1, _⟩ => rfl)
theorem dotl (i : S9216x1024.Idx) (k : Fin 256) : lidx_main_v9 i k = ix2 (i 0) k :=
  funext fun a => Fin.ext (by match a with | ⟨0, _⟩ => rfl | ⟨1, _⟩ => rfl)
theorem dotr (i : S9216x1024.Idx) (k : Fin 256) : idx_main_v8 (ridx_main_v9 i k) = ix2 (i 1) k :=
  funext fun a => Fin.ext (by match a with | ⟨0, _⟩ => rfl | ⟨1, _⟩ => rfl)

/-- The reference before its last reshape: the squared-distance matrix of the flattened arguments. -/
theorem mid_eq (x0 : (⟨S16x576x256, .f32⟩ : BufTy).Contents (Elt Ideal)) (x1 : (⟨S1x1024x256, .f32⟩ : BufTy).Contents (Elt Ideal)) :
    val_main_v15 (F := Ideal) x0 x1 = sqDist (val_main_v0 (F := Ideal) x0) (val_main_v1 (F := Ideal) x1) := by
  funext i
  rw [val_main_v15_apply, val_main_v12_apply, val_main_v10_apply, val_main_v4_apply, val_main_v3_apply,
    val_main_v11_apply, val_main_v7_apply, val_main_v6_apply, val_main_v14_apply, val_main_v13_apply, val_main_cst_1_apply,
    val_main_v9_apply]
  simp only [val_main_v2_apply, val_main_v5_apply, val_main_v8_apply, val_main_cst_apply, val_main_cst_0_apply,
    frow, crow, dotl, dotr, Ideal.subf_def, Ideal.addf_def, Ideal.mulf_def, Ideal.ofBits_def, ofBits_two, Ideal.ofBits_zero_f32]
  rfl

/-- So the reference's result is the reshape to [16, 576, 1024] of that matrix. -/
theorem result_eq (x0 : (⟨S16x576x256, .f32⟩ : BufTy).Contents (Elt Ideal)) (x1 : (⟨S1x1024x256, .f32⟩ : BufTy).Contents (Elt Ideal)) :
    val_main_v16 (F := Ideal) x0 x1
      = shapeCast S16x576x1024 (sqDist (shapeCast S9216x256 x0 shapeCasts_S16x576x256_S9216x256)
          (shapeCast S1024x256 x1 shapeCasts_S1x1024x256_S1024x256)) shapeCasts_S9216x1024_S16x576x1024 := by
  unfold val_main_v16
  rw [mid_eq]
  rfl

end Cert.ReferenceIdeal.RefValue
end
-- ==== Proof.Finite.lean ====
/-
  What the precondition gives. It says that for each argument array the absolute value of every
  entry is below the pattern 0x7F800000, which denotes +∞, the two "for all" joined by "and". On the
  extended reals |x| < +∞ leaves out exactly −∞ and +∞, so every entry of both arguments is a real number.
-/
import proofs.«145358_g44719199486315_cont_8to1c4_369_21_alg».proof.Pre_finite_inputs
import proofs.«145358_g44719199486315_cont_8to1c4_369_21_alg».proof.Proof.Gen.Pre_finite_inputs
import Idealize.ShloMosaic.PureOps.Ideal
import Idealize.ShloMosaic.Lib.ReduceAll
import Idealize.ShloMosaic.Lib.ValueIdx

noncomputable section
namespace Cert.Finite
open Idealize.ShloMosaic Cert.Pre_finite_inputs

instance : Subsingleton S_.Idx := ⟨fun a b => funext fun d => d.elim0⟩

/-- The pattern the precondition compares against denotes +∞. -/
theorem ofBits_inf : Ideal.ofBits .f32 0x7F800000#32 = ⊤ := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot =>
    exfalso
    have h' : Ideal.cmp .olt (max (⊥ : EReal) (-⊥)) ⊤ = 1#1 := h
    simp [Ideal.cmp] at h'
  | top =>
    exfalso
    have h' : Ideal.cmp .olt (max (⊤ : EReal) (-⊤)) ⊤ = 1#1 := h
    simp [Ideal.cmp] at h'
  | coe r => exact ⟨r, rfl⟩

/-- Under the precondition every entry of both arguments is a real number. -/
theorem reals_of_pre (a0 : FVec Ideal S16x576x256 .f32) (a1 : FVec Ideal S1x1024x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  exact ⟨fun i => real_of_abs_lt (a0 i) (Host.reduce_andi_all _ _ _ _ _ e0 i),
    fun i => real_of_abs_lt (a1 i) (Host.reduce_andi_all _ _ _ _ _ e1 i)⟩

end Cert.Finite
end
-- ==== Proof.lean ====
/-
  Squared distances of 9216 feature rows to 1024 codebook rows, two ways.

  The reference expands ‖f − c‖² as ‖f‖² + ‖c‖² − 2·f·c: two row sums of squares, one matrix product,
  a scaling by 2 and a subtraction. The kernel folds all of it into ONE matrix product of contraction
  length 260: the feature row is extended to (−2·f, ‖f‖², ‖f‖² − ‖f‖², 1, 1) and the codebook row to
  (c, 1, 1, ‖c‖², ‖c‖² − ‖c‖²); the codebook side is built once, at the first grid point, into a scratch
  that the three later points read. Over the extended reals a change of float format is the identity,
  so the "low halves" ‖·‖² − ‖·‖² are 0 as soon as the sums of squares are finite, and then the 260-term dot
  product is −2·f·c + ‖f‖² + ‖c‖²: the reference's value. Finiteness is what the precondition supplies;
  without it ⊤ − ⊤ is not 0 and −2 does not leave the sum.

  The frames of the two kernel programs are the generated ones; the reference's frame is its generated
  run with the result dropped. The two rewrites of the ideal pass (a narrowing to bf16 followed by the
  widening back, at the two columns of sums of squares) are the identity over the extended reals.
  The value claim: the kernel's result is the reshape of the augmented-dot-product matrix of the flattened
  arguments (Whole), the reference's the same reshape of their squared-distance matrix (RefValue), and
  on finite arguments (Finite) the two matrices are one (SqDist).
-/
import proofs.«145358_g44719199486315_cont_8to1c4_369_21_alg».proof.Defs
import proofs.«145358_g44719199486315_cont_8to1c4_369_21_alg».proof.Proof.Gen.Kernel
import proofs.«145358_g44719199486315_cont_8to1c4_369_21_alg».proof.Proof.Gen.Kernel.Skeleton
import proofs.«145358_g44719199486315_cont_8to1c4_369_21_alg».proof.Proof.Gen.Kernel.Launch
import proofs.«145358_g44719199486315_cont_8to1c4_369_21_alg».proof.Proof.Gen.Kernel.Points
import proofs.«145358_g44719199486315_cont_8to1c4_369_21_alg».proof.Proof.Gen.Kernel.Frame
import proofs.«145358_g44719199486315_cont_8to1c4_369_21_alg».proof.Proof.Gen.KernelIdeal
import proofs.«145358_g44719199486315_cont_8to1c4_369_21_alg».proof.Proof.Gen.KernelIdeal.Skeleton
import proofs.«145358_g44719199486315_cont_8to1c4_369_21_alg».proof.Proof.Gen.KernelIdeal.Launch
import proofs.«145358_g44719199486315_cont_8to1c4_369_21_alg».proof.Proof.Gen.KernelIdeal.Points
import proofs.«145358_g44719199486315_cont_8to1c4_369_21_alg».proof.Proof.Gen.KernelIdeal.Frame
import proofs.«145358_g44719199486315_cont_8to1c4_369_21_alg».proof.Proof.Gen.ReferenceIdeal
import proofs.«145358_g44719199486315_cont_8to1c4_369_21_alg».proof.Proof.Gen.Pre_finite_inputs
import proofs.«145358_g44719199486315_cont_8to1c4_369_21_alg».proof.Proof.Gen.ReferenceIdeal.Run
import proofs.«145358_g44719199486315_cont_8to1c4_369_21_alg».proof.Proof.Gen.ReferenceIdeal.Read
import proofs.«145358_g44719199486315_cont_8to1c4_369_21_alg».proof.Proof.Whole
import proofs.«145358_g44719199486315_cont_8to1c4_369_21_alg».proof.Proof.RefValue
import proofs.«145358_g44719199486315_cont_8to1c4_369_21_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing a column of sums of squares to bf16 and widening it back is the identity over the
    extended reals: once for the codebook's column, once for the feature block's. -/
theorem preserves : Cert.preserves_Kernel_KernelIdeal :=
  ⟨IdealRules.truncf_extf.statement _ .f32 .bf16, IdealRules.truncf_extf.statement _ .f32 .bf16⟩

/-- Both programs end at the same reshape of a [9216, 1024] matrix of the flattened arguments; the
    kernel's matrix is the augmented dot products, the reference's the expanded squared distances, and
    with every entry of the arguments finite these are equal entry by entry. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]
  obtain ⟨hf, hc⟩ := Cert.Finite.reals_of_pre _ _ (hpre c)
  have hfin := Cert.SqDist.augDist_eq_sqDist
    (shapeCast Cert.KernelIdeal.S9216x256 (m ((c.tc : Thread Cert.KernelIdeal.nD Cert.KernelIdeal.τ).loc Cert.KernelIdeal.main_arg0)) Cert.KernelIdeal.Gen.shapeCasts_S16x576x256_S9216x256)
    (shapeCast Cert.KernelIdeal.S1024x256 (m ((c.tc : Thread Cert.KernelIdeal.nD Cert.KernelIdeal.τ).loc Cert.KernelIdeal.main_arg1)) Cert.KernelIdeal.Gen.shapeCasts_S1x1024x256_S1024x256)
    (fun _ => hf _) (fun _ => hc _)
  rw [hfin]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
